-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x64 : Shape := ⟨2, ![1000000, 64]⟩
abbrev S1000000 : Shape := ⟨1, ![1000000]⟩
abbrev S128x64 : Shape := ⟨2, ![128, 64]⟩
abbrev S128 : Shape := ⟨1, ![128]⟩
abbrev S3x2x128 : Shape := ⟨3, ![3, 2, 128]⟩
abbrev S3x2 : Shape := ⟨2, ![3, 2]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S3x2x128 : S_.BroadcastsInDim S3x2x128 (![] : Fin 0 → Fin S3x2x128.rank)
  reducesTo_S3x2x128_S_d0_1_2 : S3x2x128.ReducesTo [0, 1, 2] S_
  bcast_S_S3x2 : S_.BroadcastsInDim S3x2 (![] : Fin 0 → Fin S3x2.rank)
  reducesTo_S3x2_S_d0_1 : S3x2.ReducesTo [0, 1] S_
  bcast_S_S1000000 : S_.BroadcastsInDim S1000000 (![] : Fin 0 → Fin S1000000.rank)
  reducesTo_S1000000_S_d0 : S1000000.ReducesTo [0] S_

variable [Facts]

def fn_part1 {F : FTy → Type} [FloatOps F] (main_arg1 : IVec S1000000 32) (main_arg5 : FVec F S3x2 .f32) (main_v13 : IVec S_ 1) (main_v16 : IVec S3x2x128 1) : IVec S_ 1 :=
  let main_c_5 : IVec S_ 1 := constantI S_ 1 1#1
  let main_v17 : IVec S_ 1 := (fun x v => Host.reduce IntOp.andi x v reducesTo_S3x2x128_S_d0_1_2 h_S_) main_v16 main_c_5
  let main_v18 : IVec S_ 1 := andi main_v13 main_v17
  let main_v19 : FVec F S3x2 .f32 := Host.absf main_arg5
  let main_cst_6 : FVec F S_ .f32 := constant S_ .f32 0x7F800000#32
  let main_v20 : FVec F S3x2 .f32 := broadcastInDim S3x2 ![] bcast_S_S3x2 main_cst_6
  let main_v21 : IVec S3x2 1 := cmpf .olt main_v19 main_v20
  let main_c_7 : IVec S_ 1 := constantI S_ 1 1#1
  let main_v22 : IVec S_ 1 := (fun x v => Host.reduce IntOp.andi x v reducesTo_S3x2_S_d0_1 h_S_) main_v21 main_c_7
  let main_v23 : IVec S_ 1 := andi main_v18 main_v22
  let main_c_8 : IVec S_ 32 := constantI S_ 32 0#32
  let main_v24 : IVec S1000000 32 := broadcastInDim S1000000 ![] bcast_S_S1000000 main_c_8
  let main_v25 : IVec S1000000 1 := cmpi .sge main_arg1 main_v24
  let main_c_9 : IVec S_ 1 := constantI S_ 1 1#1
  let main_v26 : IVec S_ 1 := (fun x v => Host.reduce IntOp.andi x v reducesTo_S1000000_S_d0 h_S_) main_v25 main_c_9
  let main_v27 : IVec S_ 1 := andi main_v23 main_v26
  let main_c_10 : IVec S_ 32 := constantI S_ 32 3#32
  let main_v28 : IVec S1000000 32 := broadcastInDim S1000000 ![] bcast_S_S1000000 main_c_10
  let main_v29 : IVec S1000000 1 := cmpi .slt main_arg1 main_v28
  let main_c_11 : IVec S_ 1 := constantI S_ 1 1#1
  let main_v30 : IVec S_ 1 := (fun x v => Host.reduce IntOp.andi x v reducesTo_S1000000_S_d0 h_S_) main_v29 main_c_11
  let main_v31 : IVec S_ 1 := andi main_v27 main_v30
  main_v31

def fn {F : FTy → Type} [FloatOps F] (main_arg0 : FVec F S1000000x64 .f32) (main_arg1 : IVec S1000000 32) (main_arg2 : FVec F S128x64 .f32) (main_arg3 : FVec F S128 .f32) (main_arg4 : FVec F S3x2x128 .f32) (main_arg5 : FVec F S3x2 .f32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x2x128 .f32 := Host.absf main_arg4
  let main_cst_4 : FVec F S_ .f32 := constant S_ .f32 0x7F800000#32
  let main_v15 : FVec F S3x2x128 .f32 := broadcastInDim S3x2x128 ![] bcast_S_S3x2x128 main_cst_4
  let main_v16 : IVec S3x2x128 1 := cmpf .olt main_v14 main_v15
  fn_part1 (F := F) main_arg1 main_arg5 main_v13 main_v16
-- ==== Kernel.lean ====
abbrev S1000000x64 : Shape := ⟨2, ![1000000, 64]⟩
abbrev S1000000 : Shape := ⟨1, ![1000000]⟩
abbrev S128x64 : Shape := ⟨2, ![128, 64]⟩
abbrev S128 : Shape := ⟨1, ![128]⟩
abbrev S3x2x128 : Shape := ⟨3, ![3, 2, 128]⟩
abbrev S3x2 : Shape := ⟨2, ![3, 2]⟩
abbrev S64x128 : Shape := ⟨2, ![64, 128]⟩
abbrev S1x128 : Shape := ⟨2, ![1, 128]⟩
abbrev S128x3x2 : Shape := ⟨3, ![128, 3, 2]⟩
abbrev S128x6 : Shape := ⟨2, ![128, 6]⟩
abbrev S1x6 : Shape := ⟨2, ![1, 6]⟩
abbrev S_ : Shape := ⟨0, ![]⟩
abbrev S1000000x1 : Shape := ⟨2, ![1000000, 1]⟩
abbrev S1000000x2 : Shape := ⟨2, ![1000000, 2]⟩
abbrev S4000x64 : Shape := ⟨2, ![4000, 64]⟩
abbrev S4000x1 : Shape := ⟨2, ![4000, 1]⟩
abbrev S4000x2 : Shape := ⟨2, ![4000, 2]⟩
abbrev S4000x128 : Shape := ⟨2, ![4000, 128]⟩
abbrev S4000x6 : Shape := ⟨2, ![4000, 6]⟩

abbrev nBuf : Space → Nat
  | .hbm => 21
  | .vmem => 10
  | .smem => 0
  | _ => 0

abbrev bufTy : (tb : Table) → Fin (tcTables nBuf tb) → BufTy
  | .hbm, ⟨0, _⟩ => ⟨S1000000x64, .f32⟩
  | .hbm, ⟨1, _⟩ => ⟨S1000000, .i32⟩
  | .hbm, ⟨2, _⟩ => ⟨S128x64, .f32⟩
  | .hbm, ⟨3, _⟩ => ⟨S128, .f32⟩
  | .hbm, ⟨4, _⟩ => ⟨S3x2x128, .f32⟩
  | .hbm, ⟨5, _⟩ => ⟨S3x2, .f32⟩
  | .hbm, ⟨6, _⟩ => ⟨S64x128, .f32⟩
  | .hbm, ⟨7, _⟩ => ⟨S1x128, .f32⟩
  | .hbm, ⟨8, _⟩ => ⟨S128x3x2, .f32⟩
  | .hbm, ⟨9, _⟩ => ⟨S128x6, .f32⟩
  | .hbm, ⟨10, _⟩ => ⟨S1x6, .f32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S1000000, .i32⟩
  | .hbm, ⟨15, _⟩ => ⟨S1000000, .i32⟩
  | .hbm, ⟨16, _⟩ => ⟨S_, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000x2, .f32⟩
  | .local _ .vmem, ⟨0, _⟩ => ⟨S4000x64, .f32⟩
  | .local _ .vmem, ⟨1, _⟩ => ⟨S4000x64, .f32⟩
  | .local _ .vmem, ⟨2, _⟩ => ⟨S4000x1, .i32⟩
  | .local _ .vmem, ⟨3, _⟩ => ⟨S4000x1, .i32⟩
  | .local _ .vmem, ⟨4, _⟩ => ⟨S64x128, .f32⟩
  | .local _ .vmem, ⟨5, _⟩ => ⟨S1x128, .f32⟩
  | .local _ .vmem, ⟨6, _⟩ => ⟨S128x6, .f32⟩
  | .local _ .vmem, ⟨7, _⟩ => ⟨S1x6, .f32⟩
  | .local _ .vmem, ⟨8, _⟩ => ⟨S4000x2, .f32⟩
  | .local _ .vmem, ⟨9, _⟩ => ⟨S4000x2, .f32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x6 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x6 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S128x64_S64x128_1_0 : S128x64.Transposes [1, 0] S64x128
  shapeCasts_S128_S1x128 : S128.ShapeCasts S1x128
  transposes_S3x2x128_S128x3x2_2_0_1 : S3x2x128.Transposes [2, 0, 1] S128x3x2
  shapeCasts_S128x3x2_S128x6 : S128x3x2.ShapeCasts S128x6
  shapeCasts_S3x2_S1x6 : S3x2.ShapeCasts S1x6
  bcast_S_S1000000 : S_.BroadcastsInDim S1000000 (![] : Fin 0 → Fin S1000000.rank)
  shapeCasts_S1000000_S1000000x1 : S1000000.ShapeCasts S1000000x1
  inb_S4000x64_S4000x64_0_0 : ∀ a, (![0, 0] : Fin 2 → Nat) a + S4000x64.size a ≤ S4000x64.size a
  h_S4000x64 : 0 < S4000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x6_S128x6_0_0 : ∀ a, (![0, 0] : Fin 2 → Nat) a + S128x6.size a ≤ S128x6.size a
  h_S128x6 : 0 < S128x6.numel
  shapeCasts_S128x6_S128x6 : S128x6.ShapeCasts S128x6
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S4000x6 : S1x6.Broadcasts S4000x6
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  iota_S1x6_d1_w32 : S1x6.Iotas .tc 32 [1]
  natLt_1_32 : 1 < 32
  broadcasts_S4000x1_S4000x6 : S4000x1.Broadcasts S4000x6
  slices_S4000x6_o0_0_S4000x2 : S4000x6.Slices ![0, 0] S4000x2
  slices_S4000x6_o0_2_S4000x2 : S4000x6.Slices ![0, 2] S4000x2
  slices_S4000x6_o0_4_S4000x2 : S4000x6.Slices ![0, 4] S4000x2
  inb_S4000x2_S4000x2_0_0 : ∀ a, (![0, 0] : Fin 2 → Nat) a + S4000x2.size a ≤ S4000x2.size a
  h_S4000x2 : 0 < S4000x2.numel
  dot_S4000x64_S64x128_S4000x128_1_0_0_1_n_n_wf : DotDims.WF S4000x64 S64x128 S4000x128 [1] [0] [0] [1] [] []
  dot_S4000x128_S128x6_S4000x6_1_0_0_1_n_n_wf : DotDims.WF S4000x128 S128x6 S4000x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S1000000x64.size a
  hwx0_0 : ∀ i : grid0.Coords, EltTy.bits .f32 = 32 ∨ (Rect.block (s := S1000000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S1000000x1.size a
  hwx0_1 : ∀ i : grid0.Coords, EltTy.bits .i32 = 32 ∨ (Rect.block (s := S1000000x1) S4000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x6.size a ≤ S128x6.size a
  hwx0_4 : ∀ i : grid0.Coords, EltTy.bits .f32 = 32 ∨ (Rect.block (s := S128x6) S128x6.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x6.size a ≤ S1x6.size a
  hwx0_5 : ∀ i : grid0.Coords, EltTy.bits .f32 = 32 ∨ (Rect.block (s := S1x6) S1x6.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x2.size a ≤ S1000000x2.size a
  hwx0_6 : ∀ i : grid0.Coords, EltTy.bits .f32 = 32 ∨ (Rect.block (s := S1000000x2) S4000x2.size (cc0_transform_6 i) (hinb0_6 i)).WholeWords (EltTy.packing .f32)

variable [Facts₀]

def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x128_S128x6_S4000x6_1_0_0_1_n_n : DotDims S4000x128 S128x6 S4000x6 where
  lhsContracting := [1]
  rhsContracting := [0]
  lhsNonContracting := [0]
  rhsNonContracting := [1]
  lhsBatch := []
  rhsBatch := []
  wf := dot_S4000x128_S128x6_S4000x6_1_0_0_1_n_n_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S128x6.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x6.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S4000x2.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1000000x64 : Shape := ⟨2, ![1000000, 64]⟩
abbrev S1000000 : Shape := ⟨1, ![1000000]⟩
abbrev S128x64 : Shape := ⟨2, ![128, 64]⟩
abbrev S128 : Shape := ⟨1, ![128]⟩
abbrev S3x2x128 : Shape := ⟨3, ![3, 2, 128]⟩
abbrev S3x2 : Shape := ⟨2, ![3, 2]⟩
abbrev S64x128 : Shape := ⟨2, ![64, 128]⟩
abbrev S1000000x128 : Shape := ⟨2, ![1000000, 128]⟩
abbrev S1x128 : Shape := ⟨2, ![1, 128]⟩
abbrev S_ : Shape := ⟨0, ![]⟩
abbrev S1000000x3x2 : Shape := ⟨3, ![1000000, 3, 2]⟩
abbrev S1x3x2 : Shape := ⟨3, ![1, 3, 2]⟩
abbrev S1000000x1x1 : Shape := ⟨3, ![1000000, 1, 1]⟩
abbrev S1 : Shape := ⟨1, ![1]⟩
abbrev S1x1x1 : Shape := ⟨3, ![1, 1, 1]⟩
abbrev S1000000x1 : Shape := ⟨2, ![1000000, 1]⟩
abbrev S1000000x1x2 : Shape := ⟨3, ![1000000, 1, 2]⟩
abbrev S1000000x2 : Shape := ⟨2, ![1000000, 2]⟩

abbrev nBuf : Space → Nat
  | .hbm => 42
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S1000000, .i32⟩
  | .hbm, ⟨2, _⟩ => ⟨S128x64, .f32⟩
  | .hbm, ⟨3, _⟩ => ⟨S128, .f32⟩
  | .hbm, ⟨4, _⟩ => ⟨S3x2x128, .f32⟩
  | .hbm, ⟨5, _⟩ => ⟨S3x2, .f32⟩
  | .hbm, ⟨6, _⟩ => ⟨S64x128, .f32⟩
  | .hbm, ⟨7, _⟩ => ⟨S1000000x128, .f32⟩
  | .hbm, ⟨8, _⟩ => ⟨S1x128, .f32⟩
  | .hbm, ⟨9, _⟩ => ⟨S1000000x128, .f32⟩
  | .hbm, ⟨10, _⟩ => ⟨S1000000x128, .f32⟩
  | .hbm, ⟨11, _⟩ => ⟨S_, .f32⟩
  | .hbm, ⟨12, _⟩ => ⟨S1000000x128, .f32⟩
  | .hbm, ⟨13, _⟩ => ⟨S1000000x128, .f32⟩
  | .hbm, ⟨14, _⟩ => ⟨S1000000x3x2, .f32⟩
  | .hbm, ⟨15, _⟩ => ⟨S1x3x2, .f32⟩
  | .hbm, ⟨16, _⟩ => ⟨S1000000x3x2, .f32⟩
  | .hbm, ⟨17, _⟩ => ⟨S1000000x3x2, .f32⟩
  | .hbm, ⟨18, _⟩ => ⟨S1000000x1x1, .i32⟩
  | .hbm, ⟨19, _⟩ => ⟨S_, .i32⟩
  | .hbm, ⟨20, _⟩ => ⟨S1000000x1x1, .i32⟩
  | .hbm, ⟨21, _⟩ => ⟨S1000000x1x1, .i1⟩
  | .hbm, ⟨22, _⟩ => ⟨S_, .i32⟩
  | .hbm, ⟨23, _⟩ => ⟨S1000000x1x1, .i32⟩
  | .hbm, ⟨24, _⟩ => ⟨S1000000x1x1, .i32⟩
  | .hbm, ⟨25, _⟩ => ⟨S1000000x1x1, .i32⟩
  | .hbm, ⟨26, _⟩ => ⟨S1, .i32⟩
  | .hbm, ⟨27, _⟩ => ⟨S_, .i32⟩
  | .hbm, ⟨28, _⟩ => ⟨S1000000x1x1, .i32⟩
  | .hbm, ⟨29, _⟩ => ⟨S1000000x1x1, .i1⟩
  | .hbm, ⟨30, _⟩ => ⟨S1x1x1, .i32⟩
  | .hbm, ⟨31, _⟩ => ⟨S1000000x1x1, .i32⟩
  | .hbm, ⟨32, _⟩ => ⟨S1000000x1x1, .i1⟩
  | .hbm, ⟨33, _⟩ => ⟨S1000000x1x1, .i1⟩
  | .hbm, ⟨34, _⟩ => ⟨S_, .i1⟩
  | .hbm, ⟨35, _⟩ => ⟨S1000000x1, .i1⟩
  | .hbm, ⟨36, _⟩ => ⟨S1000000x1x2, .f32⟩
  | .hbm, ⟨37, _⟩ => ⟨S1000000x1x2, .i1⟩
  | .hbm, ⟨38, _⟩ => ⟨S_, .f32⟩
  | .hbm, ⟨39, _⟩ => ⟨S1000000x1x2, .f32⟩
  | .hbm, ⟨40, _⟩ => ⟨S1000000x1x2, .f32⟩
  | .hbm, ⟨41, _⟩ => ⟨S1000000x2, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_c_1 : Ref sig .tc := ⟨.hbm, 26, rfl⟩
abbrev main_call1_c_2 : Ref sig .tc := ⟨.hbm, 27, rfl⟩
abbrev main_call1_v5 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_c_3 : Ref sig .tc := ⟨.hbm, 34, rfl⟩
abbrev main_call1_v11 : Ref sig .tc := ⟨.hbm, 35, rfl⟩
abbrev main_call1_v12 : Ref sig .tc := ⟨.hbm, 36, rfl⟩
abbrev main_call1_v13 : Ref sig .tc := ⟨.hbm, 37, rfl⟩
abbrev main_call1_cst : Ref sig .tc := ⟨.hbm, 38, rfl⟩
abbrev main_call1_v14 : Ref sig .tc := ⟨.hbm, 39, rfl⟩
abbrev main_v11 : Ref sig .tc := ⟨.hbm, 40, rfl⟩
abbrev main_v12 : Ref sig .tc := ⟨.hbm, 41, rfl⟩

abbrev nD : Nat := 1
abbrev τ : Topo := Topo.v7x

variable {F : FTy → Type} [FloatOps F]

class Facts₀ : Prop where
  transposes_S128x64_S64x128_1_0 : S128x64.Transposes [1, 0] S64x128
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  bcast_S3x2_S1x3x2_1_2 : S3x2.BroadcastsInDim S1x3x2 (![1, 2] : Fin 2 → Fin S1x3x2.rank)
  bcast_S1x3x2_S1000000x3x2_0_1_2 : S1x3x2.BroadcastsInDim S1000000x3x2 (![0, 1, 2] : Fin 3 → Fin S1000000x3x2.rank)
  bcast_S1000000_S1000000x1x1_0 : S1000000.BroadcastsInDim S1000000x1x1 (![0] : Fin 1 → Fin S1000000x1x1.rank)
  bcast_S_S1000000x1x1 : S_.BroadcastsInDim S1000000x1x1 (![] : Fin 0 → Fin S1000000x1x1.rank)
  bcast_S1_S1x1x1_2 : S1.BroadcastsInDim S1x1x1 (![2] : Fin 1 → Fin S1x1x1.rank)
  bcast_S1x1x1_S1000000x1x1_0_1_2 : S1x1x1.BroadcastsInDim S1000000x1x1 (![0, 1, 2] : Fin 3 → Fin S1000000x1x1.rank)
  reducesTo_S1000000x1x1_S1000000x1_d2 : S1000000x1x1.ReducesTo [2] S1000000x1
  h_S_ : 0 < S_.numel
  bcast_S1000000x1_S1000000x1x2_0_1 : S1000000x1.BroadcastsInDim S1000000x1x2 (![0, 1] : Fin 2 → Fin S1000000x1x2.rank)
  bcast_S_S1000000x1x2 : S_.BroadcastsInDim S1000000x1x2 (![] : Fin 0 → Fin S1000000x1x2.rank)
  shapeCasts_S1000000x1x2_S1000000x2 : S1000000x1x2.ShapeCasts S1000000x2
  dot_S1000000x64_S64x128_S1000000x128_1_0_0_1_n_n_wf : DotDims.WF S1000000x64 S64x128 S1000000x128 [1] [0] [0] [1] [] []
  dot_S1000000x128_S3x2x128_S1000000x3x2_1_2_0_01_n_n_wf : DotDims.WF S1000000x128 S3x2x128 S1000000x3x2 [1] [2] [0] [0, 1] [] []
  gather_S1000000x3x2_S1000000x1x1_S1000000x1x2_2_1_0_0_1_2_112_wf : GatherDims.WF S1000000x3x2 S1000000x1x1 S1000000x1x2 [2] [1] [0] [1] [0] 2 ![1, 1, 2]

variable [Facts₀]

def dot_S1000000x64_S64x128_S1000000x128_1_0_0_1_n_n : DotDims S1000000x64 S64x128 S1000000x128 where
  lhsContracting := [1]
  rhsContracting := [0]
  lhsNonContracting := [0]
  rhsNonContracting := [1]
  lhsBatch := []
  rhsBatch := []
  wf := dot_S1000000x64_S64x128_S1000000x128_1_0_0_1_n_n_wf
def dot_S1000000x128_S3x2x128_S1000000x3x2_1_2_0_01_n_n : DotDims S1000000x128 S3x2x128 S1000000x3x2 where
  lhsContracting := [1]
  rhsContracting := [2]
  lhsNonContracting := [0]
  rhsNonContracting := [0, 1]
  lhsBatch := []
  rhsBatch := []
  wf := dot_S1000000x128_S3x2x128_S1000000x3x2_1_2_0_01_n_n_wf
def gather_S1000000x3x2_S1000000x1x1_S1000000x1x2_2_1_0_0_1_2_112 : GatherDims S1000000x3x2 S1000000x1x1 S1000000x1x2 where
  offsetDims := [2]
  collapsedSliceDims := [1]
  operandBatchingDims := [0]
  startIndicesBatchingDims := [0]
  startIndexMap := [1]
  indexVectorDim := 2
  sliceSizes := ![1, 1, 2]
  wf := gather_S1000000x3x2_S1000000x1x1_S1000000x1x2_2_1_0_0_1_2_112_wf

class Facts : Prop extends Facts₀ where

variable [Facts]
-- ==== Proof.Spec.lean ====
/-
  The mathematics of the routed two-layer network, with no program in sight.

  For a row `r` of the batch, the shared trunk computes the hidden vector
  `hid r h = max (∑ i, x[r,i] · W1[h,i] + b1[h]) 0` (a linear layer and a relu), every one of the three
  heads `k` maps it to the pair `head r k o = ∑ h, hid r h · Wb[k,o,h] + bb[k,o]`, and the row's index word
  `u[r]` picks ONE head: the result is `G[r,o] = head r (u[r]) o`.

  One program reaches `G` by reading the picked head out of the stack of all three; the other multiplies
  every head by the indicator `[u[r] = k]` (a word comparison widened to 0 or 1 and converted to a float)
  and adds the three products. On the extended reals `a · 1 = a`, `a · 0 = 0` and `a + 0 = a` hold for
  every `a`, infinite ones included, so the masked sum IS the picked head as soon as the word is one of
  0, 1, 2 (`routed_sum`); that the word is one of them is what the index-range precondition says
  (`word_cases`). No finiteness is used.
-/
import Idealize.ShloMosaic.PureOps.Ideal
import Idealize.ShloMosaic.PureOps.Ideal.Laws
import Idealize.ShloMosaic.Lib.ValueIdx
import Idealize.ShloMosaic.Lib.Affine

noncomputable section

open scoped BigOperators
open Idealize.ShloMosaic Idealize.ShloMosaic.ValueIdx

namespace Cert.Routed

/-! ## The shapes of the arguments and of the result -/

abbrev SX : Shape := ⟨2, ![1000000, 64]⟩
abbrev SU : Shape := ⟨1, ![1000000]⟩
abbrev SW1 : Shape := ⟨2, ![128, 64]⟩
abbrev Sb1 : Shape := ⟨1, ![128]⟩
abbrev SWb : Shape := ⟨3, ![3, 2, 128]⟩
abbrev Sbb : Shape := ⟨2, ![3, 2]⟩
abbrev SO : Shape := ⟨2, ![1000000, 2]⟩

/-! ## The network -/

/-- Hidden unit `h` of row `r`: the linear layer's output through the relu. -/
def hid (x : FVec Ideal SX .f32) (W1 : FVec Ideal SW1 .f32) (b1 : FVec Ideal Sb1 .f32) (r : Fin 1000000) (h : Fin 128) : EReal :=
  max ((∑ i : Fin 64, x (ix2 r i) * W1 (ix2 h i)) + b1 (ix1 h)) 0

/-- Output `o` of head `k` on row `r`. -/
def head (x : FVec Ideal SX .f32) (W1 : FVec Ideal SW1 .f32) (b1 : FVec Ideal Sb1 .f32) (Wb : FVec Ideal SWb .f32)
    (bb : FVec Ideal Sbb .f32) (r : Fin 1000000) (k : Fin 3) (o : Fin 2) : EReal :=
  (∑ h : Fin 128, hid x W1 b1 r h * Wb (ix3 k o h)) + bb (ix2 k o)

/-- The head an index word names: 0, 1, and every other word the last one. -/
def pick (w : BitVec 32) : Fin 3 := if w = 0#32 then 0 else if w = 1#32 then 1 else 2

/-- The result: on row `r` the head that `u[r]` names. -/
def G (x : FVec Ideal SX .f32) (u : IVec SU 32) (W1 : FVec Ideal SW1 .f32) (b1 : FVec Ideal Sb1 .f32)
    (Wb : FVec Ideal SWb .f32) (bb : FVec Ideal Sbb .f32) : FVec Ideal SO .f32 :=
  fun j => head x W1 b1 Wb bb (j 0) (pick (u (ix1 (j 0)))) (j 1)

/-! ## Index words -/

/-- A word that is at least 0 and below 3, read signed, is 0, 1 or 2. -/
theorem word_cases (w : BitVec 32) (h0 : IntOp.cmpi .sge w 0#32 = 1#1) (h3 : IntOp.cmpi .slt w 3#32 = 1#1) :
    w = 0#32 ∨ w = 1#32 ∨ w = 2#32 := by
  rw [IntOp.cmpi_sge] at h0
  rw [IntOp.cmpi_slt] at h3
  have e0 : (0#32 : BitVec 32).toInt = 0 := by decide
  have e3 : (3#32 : BitVec 32).toInt = 3 := by decide
  rw [e0] at h0
  rw [e3] at h3
  obtain h | h | h : w.toInt = 0 ∨ w.toInt = 1 ∨ w.toInt = 2 := by omega
  · exact Or.inl (BitVec.eq_of_toInt_eq (by rw [h]; decide))
  · exact Or.inr (Or.inl (BitVec.eq_of_toInt_eq (by rw [h]; decide)))
  · exact Or.inr (Or.inr (BitVec.eq_of_toInt_eq (by rw [h]; decide)))

/-- Clamping such a word to [0, 2] leaves it alone. -/
theorem clamp_word (w : BitVec 32) (hw : w = 0#32 ∨ w = 1#32 ∨ w = 2#32) :
    IntOp.minsi 2#32 (IntOp.maxsi 0#32 w) = w := by
  rcases hw with rfl | rfl | rfl <;> decide

/-- Such a word is not negative, -/
theorem word_not_neg (w : BitVec 32) (hw : w = 0#32 ∨ w = 1#32 ∨ w = 2#32) : IntOp.cmpi .slt w 0#32 = 0#1 := by
  rcases hw with rfl | rfl | rfl <;> decide

/-- and lies in [0, 2]. -/
theorem word_in_range (w : BitVec 32) (hw : w = 0#32 ∨ w = 1#32 ∨ w = 2#32) :
    IntOp.andi (IntOp.cmpi .sge w 0#32) (IntOp.cmpi .sle w 2#32) = 1#1 := by
  rcases hw with rfl | rfl | rfl <;> decide

/-- Read signed and cut to [0, 2], such a word is the head it names. -/
theorem word_toNat (w : BitVec 32) (hw : w = 0#32 ∨ w = 1#32 ∨ w = 2#32) : min w.toInt.toNat 2 = (pick w).val := by
  rcases hw with rfl | rfl | rfl <;> decide

/-! ## The indicator of a head -/

/-- `[w = c]` as the kernel computes it: the comparison's bit, widened to a word and converted to a float. -/
def msk (w c : BitVec 32) : EReal := ((((IntOp.cmpi .eq w c).setWidth 32).toInt : ℝ) : EReal)

theorem msk_self (c : BitVec 32) : msk c c = 1 := by
  have h1 : IntOp.cmpi .eq c c = 1#1 := IntOp.cmpi_eq.2 rfl
  have h2 : ((1#1 : BitVec 1).setWidth 32).toInt = 1 := by decide
  rw [msk, h1, h2]
  simp

theorem msk_ne {w c : BitVec 32} (h : w ≠ c) : msk w c = 0 := by
  have h1 : IntOp.cmpi .eq w c = 0#1 := by
    have hne : IntOp.cmpi .eq w c ≠ 1#1 := fun e => h (IntOp.cmpi_eq.1 e)
    revert hne
    generalize IntOp.cmpi .eq w c = b
    revert b
    decide
  have h2 : ((0#1 : BitVec 1).setWidth 32).toInt = 0 := by decide
  rw [msk, h1, h2]
  simp

/-- The three heads, each times its indicator, add up to the head the word names. -/
theorem routed_sum (a : Fin 3 → EReal) (w : BitVec 32) (hw : w = 0#32 ∨ w = 1#32 ∨ w = 2#32) :
    (a 0 * msk w 0#32 + a 1 * msk w 1#32) + a 2 * msk w 2#32 = a (pick w) := by
  rcases hw with rfl | rfl | rfl
  · rw [msk_self, msk_ne (by decide : (0#32 : BitVec 32) ≠ 1#32), msk_ne (by decide : (0#32 : BitVec 32) ≠ 2#32)]
    simp [pick]
  · rw [msk_self, msk_ne (by decide : (1#32 : BitVec 32) ≠ 0#32), msk_ne (by decide : (1#32 : BitVec 32) ≠ 2#32)]
    simp [pick]
  · rw [msk_self, msk_ne (by decide : (2#32 : BitVec 32) ≠ 0#32), msk_ne (by decide : (2#32 : BitVec 32) ≠ 1#32)]
    simp [pick]

end Cert.Routed

end
-- ==== Proof.KernelPay.lean ====
/-
  What the kernel's body stores, read at one element of its output block.

  On a block of 4000 rows the body forms the hidden block `max (x · W1ᵀ + b1) 0` (a matrix product into a zero
  accumulator, a bias row broadcast down the rows, a relu), multiplies it by the 128 × 6 matrix that packs the three
  heads side by side (column `2k + o` is output `o` of head `k`), adds the packed bias row, and then keeps, for each
  row, the two columns of the head its index word names: every column `c` is multiplied by the indicator
  `[u = c / 2]` and the three column pairs are added. Changes of float format are the identity on the extended reals,
  so at element `(p, o)` the stored value is

    (P p o · [u p = 0] + P p (2 + o) · [u p = 1]) + P p (4 + o) · [u p = 2],

  with `P p c = ∑ h, max (∑ i, x[p,i] · w1[i,h] + b1[0,h]) 0 · wb[h,c] + bb[0,c]` (`packed` below).
  The column numbers `c / 2` are computed by the body from a lane counter (a floor division spelt out as
  truncated division with a sign correction); on the six lanes they are the words 0, 0, 1, 1, 2, 2 (`lane_head`).
-/
import proofs.«417460_j37855841747602_3_alg».proof.Proof.Gen.KernelIdeal.Frame
import proofs.«417460_j37855841747602_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx Cert.Routed

/-! ## The two matrix products at an element -/

theorem lhs1_0 (i : S4000x128.Idx) (q : dot_S4000x64_S64x128_S4000x128_1_0_0_1_n_n.contr.Idx) :
    (dot_S4000x64_S64x128_S4000x128_1_0_0_1_n_n.lhsIdx i q 0).val = (i 0).val := by
  unfold DotDims.lhsIdx
  rw [dif_neg (show ¬(0 : Fin S4000x64.rank) ∈ dot_S4000x64_S64x128_S4000x128_1_0_0_1_n_n.lhsBatch by decide), dif_pos (show (0 : Fin S4000x64.rank) ∈ dot_S4000x64_S64x128_S4000x128_1_0_0_1_n_n.lhsNonContracting by decide)]
  rfl
theorem lhs1_1 (i : S4000x128.Idx) (q : dot_S4000x64_S64x128_S4000x128_1_0_0_1_n_n.contr.Idx) :
    (dot_S4000x64_S64x128_S4000x128_1_0_0_1_n_n.lhsIdx i q 1).val = (q ⟨0, by decide⟩).val :=
  dot_S4000x64_S64x128_S4000x128_1_0_0_1_n_n.lhsIdx_val_of_single rfl i q
theorem rhs1_0 (i : S4000x128.Idx) (q : dot_S4000x64_S64x128_S4000x128_1_0_0_1_n_n.contr.Idx) :
    (dot_S4000x64_S64x128_S4000x128_1_0_0_1_n_n.rhsIdx i q 0).val = (q ⟨0, by decide⟩).val :=
  dot_S4000x64_S64x128_S4000x128_1_0_0_1_n_n.rhsIdx_val_of_single rfl i q
theorem rhs1_1 (i : S4000x128.Idx) (q : dot_S4000x64_S64x128_S4000x128_1_0_0_1_n_n.contr.Idx) :
    (dot_S4000x64_S64x128_S4000x128_1_0_0_1_n_n.rhsIdx i q 1).val = (i 1).val := by
  unfold DotDims.rhsIdx
  rw [dif_neg (show ¬(1 : Fin S64x128.rank) ∈ dot_S4000x64_S64x128_S4000x128_1_0_0_1_n_n.rhsBatch by decide), dif_pos (show (1 : Fin S64x128.rank) ∈ dot_S4000x64_S64x128_S4000x128_1_0_0_1_n_n.rhsNonContracting by decide)]
  rfl

/-- Rows times columns: element `(p, h)` of the first product is the sum over the 64 inputs. -/
theorem matmul1_apply (l : FVec Ideal S4000x64 .bf16) (r : FVec Ideal S64x128 .bf16) (p : Fin 4000) (h : Fin 128) :
    matmul dot_S4000x64_S64x128_S4000x128_1_0_0_1_n_n none l r (constant S4000x128 .f32 0x00000000#32) (ix2 p h)
      = ∑ i : Fin 64, l (ix2 p i) * r (ix2 i h) := by
  simp only [matmul]
  rw [Ideal.matmul_constant_zero_apply, ← Equiv.sum_comp (ValueIdx.contrEquiv1 dot_S4000x64_S64x128_S4000x128_1_0_0_1_n_n 64 rfl rfl).symm]
  refine Finset.sum_congr rfl fun k _ => ?_
  have hk := ValueIdx.contrEquiv1_symm_val dot_S4000x64_S64x128_S4000x128_1_0_0_1_n_n 64 rfl rfl k
  have el : dot_S4000x64_S64x128_S4000x128_1_0_0_1_n_n.lhsIdx (ix2 p h) ((ValueIdx.contrEquiv1 dot_S4000x64_S64x128_S4000x128_1_0_0_1_n_n 64 rfl rfl).symm k) = ix2 p k := funext fun a => Fin.ext (by
    match a with
    | ⟨0, _⟩ => exact lhs1_0 _ _
    | ⟨1, _⟩ => exact (lhs1_1 _ _).trans hk)
  have er : dot_S4000x64_S64x128_S4000x128_1_0_0_1_n_n.rhsIdx (ix2 p h) ((ValueIdx.contrEquiv1 dot_S4000x64_S64x128_S4000x128_1_0_0_1_n_n 64 rfl rfl).symm k) = ix2 k h := funext fun a => Fin.ext (by
    match a with
    | ⟨0, _⟩ => exact (rhs1_0 _ _).trans hk
    | ⟨1, _⟩ => exact rhs1_1 _ _)
  rw [el, er]

theorem lhs2_0 (i : S4000x6.Idx) (q : dot_S4000x128_S128x6_S4000x6_1_0_0_1_n_n.contr.Idx) :
    (dot_S4000x128_S128x6_S4000x6_1_0_0_1_n_n.lhsIdx i q 0).val = (i 0).val := by
  unfold DotDims.lhsIdx
  rw [dif_neg (show ¬(0 : Fin S4000x128.rank) ∈ dot_S4000x128_S128x6_S4000x6_1_0_0_1_n_n.lhsBatch by decide), dif_pos (show (0 : Fin S4000x128.rank) ∈ dot_S4000x128_S128x6_S4000x6_1_0_0_1_n_n.lhsNonContracting by decide)]
  rfl
theorem lhs2_1 (i : S4000x6.Idx) (q : dot_S4000x128_S128x6_S4000x6_1_0_0_1_n_n.contr.Idx) :
    (dot_S4000x128_S128x6_S4000x6_1_0_0_1_n_n.lhsIdx i q 1).val = (q ⟨0, by decide⟩).val :=
  dot_S4000x128_S128x6_S4000x6_1_0_0_1_n_n.lhsIdx_val_of_single rfl i q
theorem rhs2_0 (i : S4000x6.Idx) (q : dot_S4000x128_S128x6_S4000x6_1_0_0_1_n_n.contr.Idx) :
    (dot_S4000x128_S128x6_S4000x6_1_0_0_1_n_n.rhsIdx i q 0).val = (q ⟨0, by decide⟩).val :=
  dot_S4000x128_S128x6_S4000x6_1_0_0_1_n_n.rhsIdx_val_of_single rfl i q
theorem rhs2_1 (i : S4000x6.Idx) (q : dot_S4000x128_S128x6_S4000x6_1_0_0_1_n_n.contr.Idx) :
    (dot_S4000x128_S128x6_S4000x6_1_0_0_1_n_n.rhsIdx i q 1).val = (i 1).val := by
  unfold DotDims.rhsIdx
  rw [dif_neg (show ¬(1 : Fin S128x6.rank) ∈ dot_S4000x128_S128x6_S4000x6_1_0_0_1_n_n.rhsBatch by decide), dif_pos (show (1 : Fin S128x6.rank) ∈ dot_S4000x128_S128x6_S4000x6_1_0_0_1_n_n.rhsNonContracting by decide)]
  rfl

/-- Element `(p, c)` of the second product is the sum over the 128 hidden units. -/
theorem matmul2_apply (l : FVec Ideal S4000x128 .bf16) (r : FVec Ideal S128x6 .bf16) (p : Fin 4000) (c : Fin 6) :
    matmul dot_S4000x128_S128x6_S4000x6_1_0_0_1_n_n none l r (constant S4000x6 .f32 0x00000000#32) (ix2 p c)
      = ∑ h : Fin 128, l (ix2 p h) * r (ix2 h c) := by
  simp only [matmul]
  rw [Ideal.matmul_constant_zero_apply, ← Equiv.sum_comp (ValueIdx.contrEquiv1 dot_S4000x128_S128x6_S4000x6_1_0_0_1_n_n 128 rfl rfl).symm]
  refine Finset.sum_congr rfl fun k _ => ?_
  have hk := ValueIdx.contrEquiv1_symm_val dot_S4000x128_S128x6_S4000x6_1_0_0_1_n_n 128 rfl rfl k
  have el : dot_S4000x128_S128x6_S4000x6_1_0_0_1_n_n.lhsIdx (ix2 p c) ((ValueIdx.contrEquiv1 dot_S4000x128_S128x6_S4000x6_1_0_0_1_n_n 128 rfl rfl).symm k) = ix2 p k := funext fun a => Fin.ext (by
    match a with
    | ⟨0, _⟩ => exact lhs2_0 _ _
    | ⟨1, _⟩ => exact (lhs2_1 _ _).trans hk)
  have er : dot_S4000x128_S128x6_S4000x6_1_0_0_1_n_n.rhsIdx (ix2 p c) ((ValueIdx.contrEquiv1 dot_S4000x128_S128x6_S4000x6_1_0_0_1_n_n 128 rfl rfl).symm k) = ix2 k c := funext fun a => Fin.ext (by
    match a with
    | ⟨0, _⟩ => exact (rhs2_0 _ _).trans hk
    | ⟨1, _⟩ => exact rhs2_1 _ _)
  rw [el, er]

/-! ## The packed heads on a block -/

/-- Column `c` of the packed heads on block row `p`, from the block of `x`, the transposed first-layer matrix, the bias
    row, the packed head matrix and the packed head bias row. -/
def packed (x0 : Vec Ideal S4000x64 .f32) (x2 : Vec Ideal S64x128 .f32) (x3 : Vec Ideal S1x128 .f32)
    (x4 : Vec Ideal S128x6 .f32) (x5 : Vec Ideal S1x6 .f32) (p : Fin 4000) (c : Fin 6) : EReal :=
  (∑ h : Fin 128, max ((∑ i : Fin 64, x0 (ix2 p i) * x2 (ix2 i h)) + x3 (ix2 (0 : Fin 1) h)) 0 * x4 (ix2 h c)) + x5 (ix2 (0 : Fin 1) c)

theorem pay2_apply (v0 : Vec Ideal S4000x64 .f32) (v2 : Vec Ideal S64x128 .f32) (v5 : Vec Ideal S1x128 .f32)
    (v13 : Vec Ideal S128x6 .f32) (v16 : Vec Ideal S1x6 .f32) (p : Fin 4000) (c : Fin 6) :
    k0_pay2 (F := Ideal) v0 v2 v5 v13 v16 (ix2 p c) = packed v0 v2 v5 v13 v16 p c := by
  unfold k0_pay2 packed
  simp only [addf_apply, matmul2_apply, matmul1_apply, truncf_apply, maximumf_apply, broadcastTo_1b_ab_apply, shapeCast_self,
    broadcast_apply, Ideal.ofBits_def, Ideal.ofBits_zero_f32]

/-! ## The head a lane belongs to -/

/-- Lane `2k + o` of the packed row: output `o` of head `k`. -/
def lane (k : Fin 3) (o : Fin 2) : Fin 6 := ⟨2 * k.val + o.val, by have := k.isLt; have := o.isLt; omega⟩

/-- The body's head number on lane `c` — the lane counter divided by two, rounding down — is the word `c / 2`. -/
theorem lane_head (c : Fin 6) :
    (select (andi (cmpi .ne k0_pay5 k0_pay6) (cmpi .ne (remsi (iota .tc S1x6 32 [1] iota_S1x6_d1_w32) (broadcast S1x6 2#32)) (broadcast S1x6 0#32)))
      (subi k0_pay4 (broadcast S1x6 1#32)) k0_pay4 : IVec S1x6 32) (ix2 (0 : Fin 1) c) = BitVec.ofNat 32 (c.val / 2) := by
  unfold k0_pay4 k0_pay5 k0_pay6
  simp only [select, andi, cmpi, remsi, subi, divsi, extui, broadcast]
  rw [iota_single_apply .tc S1x6 32 1 iota_S1x6_d1_w32 (ix2 (0 : Fin 1) c)]
  show Scalar.select _ _ _ = _
  fin_cases c <;> decide

theorem lane_div (k : Fin 3) (o : Fin 2) : (lane k o).val / 2 = k.val := by
  have := o.isLt
  show (2 * k.val + o.val) / 2 = k.val
  omega

/-- The index word of a row, laid along the six lanes, reads the row's word on every lane. -/
theorem bcast_col (v : IVec S4000x1 32) (p : Fin 4000) (c : Fin 6) :
    broadcastTo S4000x6 v broadcasts_S4000x1_S4000x6 (ix2 p c) = v (ix2 p (0 : Fin 1)) := by
  refine broadcastTo_apply v _ (ix2 p c) (ix2 p (0 : Fin 1)) fun ax => ?_
  match ax with
  | ⟨0, _⟩ => rfl
  | ⟨1, _⟩ => rfl

theorem cmpi_at {s : Shape} {w : Nat} (pr : CmpIPredicate) (x y : IVec s w) (i : s.Idx) : cmpi pr x y i = IntOp.cmpi pr (x i) (y i) := rfl

/-- The stored value at `(p, o)`: the three heads' columns `o`, each times the indicator of its head, added. -/
theorem pay1_apply (v20 : FVec Ideal S4000x6 .f32) (v22 : IVec S4000x1 32) (p : Fin 4000) (o : Fin 2) :
    k0_pay1 (F := Ideal) v20 v22 (iota .tc S1x6 32 [1] iota_S1x6_d1_w32) 2#32 k0_pay4 k0_pay5 k0_pay6 (ix2 p o)
      = (v20 (ix2 p (lane 0 o)) * msk (v22 (ix2 p (0 : Fin 1))) 0#32 + v20 (ix2 p (lane 1 o)) * msk (v22 (ix2 p (0 : Fin 1))) 1#32)
        + v20 (ix2 p (lane 2 o)) * msk (v22 (ix2 p (0 : Fin 1))) 2#32 := by
  unfold k0_pay1
  simp only [addf_apply]
  rw [slice2_axis1_apply 0 _ _ p o (lane 0 o) (by simp [lane]), slice2_axis1_apply 2 _ _ p o (lane 1 o) (by simp [lane]),
    slice2_axis1_apply 4 _ _ p o (lane 2 o) (by simp [lane])]
  simp only [mulf_apply, sitofp_apply, extui_apply, cmpi_at, bcast_col, broadcastTo_1b_ab_apply]
  rw [lane_head (lane 0 o), lane_head (lane 1 o), lane_head (lane 2 o), lane_div, lane_div, lane_div]
  rfl

/-! ## The body's result for the output block -/

theorem zero_offsets : (![0, 0] : Fin 2 → Nat) = fun _ => 0 := funext fun a => by fin_cases a <;> rfl

/-- Element `(p, o)` of what the body leaves in the output block, from the six input blocks. -/
theorem out_apply (x0 : Vec Ideal S4000x64 .f32) (x1 : Vec Ideal S4000x1 .i32) (x2 : Vec Ideal S64x128 .f32) (x3 : Vec Ideal S1x128 .f32)
    (x4 : Vec Ideal S128x6 .f32) (x5 : Vec Ideal S1x6 .f32) (p : Fin 4000) (o : Fin 2) :
    out0_6 (F := Ideal) x0 x1 x2 x3 x4 x5 (ix2 p o)
      = (packed x0 x2 x3 x4 x5 p (lane 0 o) * msk (x1 (ix2 p (0 : Fin 1))) 0#32 + packed x0 x2 x3 x4 x5 p (lane 1 o) * msk (x1 (ix2 p (0 : Fin 1))) 1#32)
        + packed x0 x2 x3 x4 x5 p (lane 2 o) * msk (x1 (ix2 p (0 : Fin 1))) 2#32 := by
  unfold out0_6
  rw [View.canon_unit_zero zero_offsets]
  simp only [View.ld_unit_zero (S := S4000x64) zero_offsets, View.ld_unit_zero (S := S4000x1) zero_offsets, View.ld_unit_zero (S := S64x128) zero_offsets,
    View.ld_unit_zero (S := S1x128) zero_offsets, View.ld_unit_zero (S := S128x6) zero_offsets, View.ld_unit_zero (S := S1x6) zero_offsets]
  rw [pay1_apply]
  simp only [pay2_apply]
  unfold k0_pay3
  simp only [shapeCast_self]

end Cert.KernelIdeal.Pay

end
-- ==== Proof.KernelBlocks.lean ====
/-
  From blocks to the array.

  The grid has 250 points; point `t` works on rows `4000 t … 4000 t + 3999`: it fetches that block of `x` and of the
  (clamped) index words, and every time the same whole small operands — the transposed first-layer matrix, the bias
  row, the packed head matrix and the packed head bias —, and writes back that block of rows of the [1000000, 2] result.
  So what the body stores at `(p, o)` of point `t`'s block is a function of the ROW `4000 t + p` alone: the blocks are
  the restrictions of ONE function `GK` of the six arrays the region reads, and since the 250 blocks tile the result
  array, the array ends holding `GK` everywhere.
-/
import proofs.«417460_j37855841747602_3_alg».proof.Proof.Gen.KernelIdeal.Value
import proofs.«417460_j37855841747602_3_alg».proof.Proof.KernelPay

set_option maxRecDepth 16384

noncomputable section

open scoped BigOperators

namespace Cert.KernelIdeal.Blocks

open Cert.KernelIdeal Cert.KernelIdeal.Gen Cert.KernelIdeal.Pay Idealize.ShloMosaic Idealize.ShloMosaic.TcCoe Idealize.SL.Sem
open Idealize.ShloMosaic.ValueIdx Cert.Routed
open Idealize.ShloMosaic.Pipeline (Dat)

variable (m : (ℓ : Loc nD τ sig) → Buf (Elt Ideal) ℓ) (ρ : Dev nD → PrngReg)

/-! ## The whole-array function -/

/-- Column `c` of the packed heads on row `r` of the whole batch. -/
def packedA (X : Vec Ideal S1000000x64 .f32) (A0 : Vec Ideal S64x128 .f32) (A1 : Vec Ideal S1x128 .f32)
    (A3 : Vec Ideal S128x6 .f32) (A4 : Vec Ideal S1x6 .f32) (r : Fin 1000000) (c : Fin 6) : EReal :=
  (∑ h : Fin 128, max ((∑ i : Fin 64, X (ix2 r i) * A0 (ix2 i h)) + A1 (ix2 (0 : Fin 1) h)) 0 * A3 (ix2 h c)) + A4 (ix2 (0 : Fin 1) c)

/-- The result array as one function of the arrays the region reads: on row `r`, the three heads' columns times the
    indicators of the row's word, added. -/
def GK (X : Vec Ideal S1000000x64 .f32) (U : Vec Ideal S1000000x1 .i32) (A0 : Vec Ideal S64x128 .f32) (A1 : Vec Ideal S1x128 .f32)
    (A3 : Vec Ideal S128x6 .f32) (A4 : Vec Ideal S1x6 .f32) : Vec Ideal S1000000x2 .f32 := fun j =>
  (packedA X A0 A1 A3 A4 (j 0) (lane 0 (j 1)) * msk (U (ix2 (j 0) (0 : Fin 1))) 0#32
    + packedA X A0 A1 A3 A4 (j 0) (lane 1 (j 1)) * msk (U (ix2 (j 0) (0 : Fin 1))) 1#32)
    + packedA X A0 A1 A3 A4 (j 0) (lane 2 (j 1)) * msk (U (ix2 (j 0) (0 : Fin 1))) 2#32

/-! ## Where each window's block lies -/

/-- The printed index maps over the grid: the row windows (the batch block of `x`, of the index words and of the
    result) sit at block `t` on the row axis, every other window at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of point `t`'s block is row `4000 t + p` of the batch. -/
def row (t : Fin cfg0.N) (p : Fin 4000) : Fin 1000000 :=
  ⟨t.val * 4000 + p.val, by have h1 := t.isLt; have h2 : cfg0.N = 250 := N_0; have h3 := p.isLt; omega⟩

/-- The six input blocks at a point, at their literal types. -/
abbrev xb (c : Dev nD) (t : Fin cfg0.N) : Vec Ideal S4000x64 .f32 := iblk m c 0 t
abbrev ub (c : Dev nD) (t : Fin cfg0.N) : Vec Ideal S4000x1 .i32 := iblk m c 1 t
abbrev w1b (c : Dev nD) (t : Fin cfg0.N) : Vec Ideal S64x128 .f32 := iblk m c 2 t
abbrev b1b (c : Dev nD) (t : Fin cfg0.N) : Vec Ideal S1x128 .f32 := iblk m c 3 t
abbrev wbb (c : Dev nD) (t : Fin cfg0.N) : Vec Ideal S128x6 .f32 := iblk m c 4 t
abbrev bbb (c : Dev nD) (t : Fin cfg0.N) : Vec Ideal S1x6 .f32 := iblk m c 5 t

theorem xb_apply (c : Dev nD) (t : Fin cfg0.N) (p : Fin 4000) (i : Fin 64) :
    xb m c t (ix2 p i) = V m c main_arg0 (ix2 (row t p) i) := by
  obtain ⟨e0, e1, -⟩ := idx_facts t
  show V m c main_arg0 (((cfg0.win 0).blk t).view.emb (ix2 p i)) = _
  refine congrArg _ (funext fun a => Fin.ext ?_)
  match a with
  | ⟨0, _⟩ => show win0_0.index t (0 : Fin 2) * 4000 + 1 * p.val = t.val * 4000 + p.val; rw [e0]; omega
  | ⟨1, _⟩ => show win0_0.index t (1 : Fin 2) * 64 + 1 * i.val = i.val; rw [e1]; omega

theorem ub_apply (c : Dev nD) (t : Fin cfg0.N) (p : Fin 4000) :
    ub m c t (ix2 p (0 : Fin 1)) = V m c main_v6 (ix2 (row t p) (0 : Fin 1)) := by
  obtain ⟨-, -, e0, e1, -⟩ := idx_facts t
  show V m c main_v6 (((cfg0.win 1).blk t).view.emb (ix2 p (0 : Fin 1))) = _
  refine congrArg _ (funext fun a => Fin.ext ?_)
  match a with
  | ⟨0, _⟩ => show win0_1.index t (0 : Fin 2) * 4000 + 1 * p.val = t.val * 4000 + p.val; rw [e0]; omega
  | ⟨1, _⟩ => show win0_1.index t (1 : Fin 2) * 1 + 1 * 0 = 0; rw [e1]

theorem w1b_apply (c : Dev nD) (t : Fin cfg0.N) (i : Fin 64) (h : Fin 128) :
    w1b m c t (ix2 i h) = V m c main_v0 (ix2 i h) := by
  obtain ⟨-, -, -, -, e0, e1, -⟩ := idx_facts t
  show V m c main_v0 (((cfg0.win 2).blk t).view.emb (ix2 i h)) = _
  refine congrArg _ (funext fun a => Fin.ext ?_)
  match a with
  | ⟨0, _⟩ => show win0_2.index t (0 : Fin 2) * 64 + 1 * i.val = i.val; rw [e0]; omega
  | ⟨1, _⟩ => show win0_2.index t (1 : Fin 2) * 128 + 1 * h.val = h.val; rw [e1]; omega

theorem b1b_apply (c : Dev nD) (t : Fin cfg0.N) (h : Fin 128) :
    b1b m c t (ix2 (0 : Fin 1) h) = V m c main_v1 (ix2 (0 : Fin 1) h) := by
  obtain ⟨-, -, -, -, -, -, e0, e1, -⟩ := idx_facts t
  show V m c main_v1 (((cfg0.win 3).blk t).view.emb (ix2 (0 : Fin 1) h)) = _
  refine congrArg _ (funext fun a => Fin.ext ?_)
  match a with
  | ⟨0, _⟩ => show win0_3.index t (0 : Fin 2) * 1 + 1 * 0 = 0; rw [e0]
  | ⟨1, _⟩ => show win0_3.index t (1 : Fin 2) * 128 + 1 * h.val = h.val; rw [e1]; omega

theorem wbb_apply (c : Dev nD) (t : Fin cfg0.N) (h : Fin 128) (k : Fin 6) :
    wbb m c t (ix2 h k) = V m c main_v3 (ix2 h k) := by
  obtain ⟨-, -, -, -, -, -, -, -, e0, e1, -⟩ := idx_facts t
  show V m c main_v3 (((cfg0.win 4).blk t).view.emb (ix2 h k)) = _
  refine congrArg _ (funext fun a => Fin.ext ?_)
  match a with
  | ⟨0, _⟩ => show win0_4.index t (0 : Fin 2) * 128 + 1 * h.val = h.val; rw [e0]; omega
  | ⟨1, _⟩ => show win0_4.index t (1 : Fin 2) * 6 + 1 * k.val = k.val; rw [e1]; omega

theorem bbb_apply (c : Dev nD) (t : Fin cfg0.N) (k : Fin 6) :
    bbb m c t (ix2 (0 : Fin 1) k) = V m c main_v4 (ix2 (0 : Fin 1) k) := by
  obtain ⟨-, -, -, -, -, -, -, -, -, -, e0, e1, -⟩ := idx_facts t
  show V m c main_v4 (((cfg0.win 5).blk t).view.emb (ix2 (0 : Fin 1) k)) = _
  refine congrArg _ (funext fun a => Fin.ext ?_)
  match a with
  | ⟨0, _⟩ => show win0_5.index t (0 : Fin 2) * 1 + 1 * 0 = 0; rw [e0]
  | ⟨1, _⟩ => show win0_5.index t (1 : Fin 2) * 6 + 1 * k.val = k.val; rw [e1]; omega

/-- The packed heads on a block row are those of the batch row it is. -/
theorem packed_blk (c : Dev nD) (t : Fin cfg0.N) (p : Fin 4000) (k : Fin 6) :
    packed (xb m c t) (w1b m c t) (b1b m c t) (wbb m c t) (bbb m c t) p k
      = packedA (V m c main_arg0) (V m c main_v0) (V m c main_v1) (V m c main_v3) (V m c main_v4) (row t p) k := by
  unfold packed packedA
  simp only [xb_apply m c t, w1b_apply m c t, b1b_apply m c t, wbb_apply m c t, bbb_apply m c t]

/-! ## What a point writes back, the cover, and the array after the run -/

/-- Point `t` writes back block `t` of `GK`. -/
theorem flushed_eq (c : Dev nD) (t : Fin cfg0.N) :
    (dats m 0 c).flushed 6 t = ((cfg0.win 6).blk t).view.read (Elt Ideal)
      (GK (V m c main_arg0) (V m c main_v6) (V m c main_v0) (V m c main_v1) (V m c main_v3) (V m c main_v4)) := by
  rw [Value.flushed6]
  obtain ⟨-, -, -, -, -, -, -, -, -, -, -, -, e0, e1⟩ := idx_facts t
  refine funext fun (y : S4000x2.Idx) => ?_
  obtain ⟨p, o, rfl⟩ : ∃ (p : Fin 4000) (o : Fin 2), y = ix2 p o := ⟨y 0, y 1, eq_ix2 y⟩
  have he : ((cfg0.win 6).blk t).view.emb (ix2 p o) = ix2 (row t p) o := funext fun a => Fin.ext (by
    match a with
    | ⟨0, _⟩ => show win0_6.index t (0 : Fin 2) * 4000 + 1 * p.val = t.val * 4000 + p.val; rw [e0]; omega
    | ⟨1, _⟩ => show win0_6.index t (1 : Fin 2) * 2 + 1 * o.val = o.val; rw [e1]; omega)
  show out0_6 (xb m c t) (ub m c t) (w1b m c t) (b1b m c t) (wbb m c t) (bbb m c t) (ix2 p o)
    = GK (V m c main_arg0) (V m c main_v6) (V m c main_v0) (V m c main_v1) (V m c main_v3) (V m c main_v4) (((cfg0.win 6).blk t).view.emb (ix2 p o))
  rw [he]
  refine (out_apply (xb m c t) (ub m c t) (w1b m c t) (b1b m c t) (wbb m c t) (bbb m c t) p o).trans ?_
  rw [packed_blk m c t p (lane 0 o), packed_blk m c t p (lane 1 o), packed_blk m c t p (lane 2 o), ub_apply m c t p]
  rfl

/-- An index of the result array is in point `t`'s block iff each coordinate is in the block's range on its axis. -/
theorem mem_blk (t : Fin cfg0.N) (i : S1000000x2.Idx) :
    i ∈ ((cfg0.win 6).blk t).view.set ↔ ∀ a : Fin 2, win0_6.index t a * S4000x2.size a ≤ (i a).val ∧ (i a).val < win0_6.index t a * S4000x2.size a + S4000x2.size a := by
  show i ∈ ((View.whole main_v7).slice (win0_6.rect t)).set ↔ _
  rw [View.set_slice_whole, Rect.mem_set_unit]
  exact Iff.rfl

/-- Row `r` lies in the block of point `r / 4000`: the 250 blocks cover the array. -/
theorem cover (i : S1000000x2.Idx) : ∃ t : Fin cfg0.N, (cfg0.win 6).flush t = true ∧ i ∈ ((cfg0.win 6).blk t).view.set := by
  have hi0 : (i 0).val < 1000000 := (i 0).isLt
  have hi1 : (i 1).val < 2 := (i 1).isLt
  have hN : cfg0.N = 250 := N_0
  have hlt : (i 0).val / 4000 < cfg0.N := by omega
  obtain ⟨-, -, -, -, -, -, -, -, -, -, -, -, e0, e1⟩ := idx_facts ⟨(i 0).val / 4000, hlt⟩
  refine ⟨⟨(i 0).val / 4000, hlt⟩, flush0_6 _, ?_⟩
  rw [mem_blk]
  intro a
  match a with
  | ⟨0, _⟩ =>
    show win0_6.index ⟨(i 0).val / 4000, hlt⟩ (0 : Fin 2) * 4000 ≤ (i 0).val ∧ (i 0).val < win0_6.index ⟨(i 0).val / 4000, hlt⟩ (0 : Fin 2) * 4000 + 4000
    rw [e0]
    show (i 0).val / 4000 * 4000 ≤ (i 0).val ∧ (i 0).val < (i 0).val / 4000 * 4000 + 4000
    omega
  | ⟨1, _⟩ =>
    show win0_6.index ⟨(i 0).val / 4000, hlt⟩ (1 : Fin 2) * 2 ≤ (i 1).val ∧ (i 1).val < win0_6.index ⟨(i 0).val / 4000, hlt⟩ (1 : Fin 2) * 2 + 2
    rw [e1]
    omega

/-- The result array after the run is `GK` of the arrays the region reads. -/
theorem final (c : Dev nD) : (dats m 0 c).arrAt 6 cfg0.N
    = GK (V m c main_arg0) (V m c main_v6) (V m c main_v0) (V m c main_v1) (V m c main_v3) (V m c main_v4) :=
  (dats m 0 c).arrAt_eq_of_cover 6 _ (fun t _ => flushed_eq m c t) cover

end Cert.KernelIdeal.Blocks

end
-- ==== Proof.KernelHost.lean ====
/-
  The arrays the region reads, as functions of the arguments, and the result array as `G`.

  Before the region the program prepares its operands: `W1` transposed; `b1` as a row; `Wb` with the hidden axis moved
  first and the two head axes flattened, so that column `2k + o` of the packed matrix is `Wb[k, o, ·]`; `bb` flattened
  the same way; and the index words clamped to [0, 2] and kept as a column. Read at an index: `w1[i,h] = W1[h,i]`,
  `b1[0,h] = b1[h]`, `wb[h, 2k+o] = Wb[k,o,h]`, `bb[0, 2k+o] = bb[k,o]`, `uc[r,0] = min 2 (max 0 u[r])`.
  With these the packed column `2k + o` on row `r` is `head r k o`, and for an index word in {0, 1, 2} (clamping does
  nothing to it) the masked sum of the three heads is the head the word names: `GK` of the region's arrays is `G` of
  the arguments.
-/
import proofs.«417460_j37855841747602_3_alg».proof.Proof.KernelBlocks
import Idealize.ShloMosaic.Lib.StableHlo.Run

set_option maxRecDepth 16384

noncomputable section

open scoped BigOperators

namespace Cert.KernelIdeal.Host

open Cert.KernelIdeal Cert.KernelIdeal.Gen Cert.KernelIdeal.Pay Cert.KernelIdeal.Blocks
open Idealize.ShloMosaic Idealize.ShloMosaic.TcCoe Idealize.SL.Sem Idealize.ShloMosaic.StableHlo
open Idealize.ShloMosaic.ValueIdx Cert.Routed

variable (m : (ℓ : Loc nD τ sig) → Buf (Elt Ideal) ℓ)

/-! ## The prepared operands -/

theorem V_w1 (c : Dev nD) : (V m c main_v0 : S64x128.Idx → EReal)
    = transpose S64x128 [1, 0] (m ((c : Thread nD τ).loc main_arg2)) transposes_S128x64_S64x128_1_0 := by
  dsimp only [Gen.V]
  simp only [Gen.hostOps0, Gen.hostOps0_1, Gen.hostOps0_2, List.flatten_cons, List.flatten_nil, List.append_nil, List.cons_append, List.nil_append]
  after_results

theorem V_b1 (c : Dev nD) : (V m c main_v1 : S1x128.Idx → EReal)
    = shapeCast S1x128 (m ((c : Thread nD τ).loc main_arg3)) shapeCasts_S128_S1x128 := by
  dsimp only [Gen.V]
  simp only [Gen.hostOps0, Gen.hostOps0_1, Gen.hostOps0_2, List.flatten_cons, List.flatten_nil, List.append_nil, List.cons_append, List.nil_append]
  after_results
  rfl

theorem V_wb (c : Dev nD) : (V m c main_v3 : S128x6.Idx → EReal)
    = shapeCast S128x6 (transpose S128x3x2 [2, 0, 1] (m ((c : Thread nD τ).loc main_arg4)) transposes_S3x2x128_S128x3x2_2_0_1) shapeCasts_S128x3x2_S128x6 := by
  dsimp only [Gen.V]
  simp only [Gen.hostOps0, Gen.hostOps0_1, Gen.hostOps0_2, List.flatten_cons, List.flatten_nil, List.append_nil, List.cons_append, List.nil_append]
  after_results
  rfl

theorem V_bb (c : Dev nD) : (V m c main_v4 : S1x6.Idx → EReal)
    = shapeCast S1x6 (m ((c : Thread nD τ).loc main_arg5)) shapeCasts_S3x2_S1x6 := by
  dsimp only [Gen.V]
  simp only [Gen.hostOps0, Gen.hostOps0_1, Gen.hostOps0_2, List.flatten_cons, List.flatten_nil, List.append_nil, List.cons_append, List.nil_append]
  after_results
  rfl

theorem V_uc (c : Dev nD) : (V m c main_v6 : S1000000x1.Idx → BitVec 32)
    = shapeCast S1000000x1 (minsi (broadcastInDim S1000000 ![] bcast_S_S1000000 (constantI S_ 32 2#32))
        (maxsi (broadcastInDim S1000000 ![] bcast_S_S1000000 (constantI S_ 32 0#32)) (m ((c : Thread nD τ).loc main_arg1)))) shapeCasts_S1000000_S1000000x1 := by
  dsimp only [Gen.V]
  simp only [Gen.hostOps0, Gen.hostOps0_1, Gen.hostOps0_2, List.flatten_cons, List.flatten_nil, List.append_nil, List.cons_append, List.nil_append]
  after_results
  first | rfl | (simp only [TRef.ofBuf, TRef.toBuf, cast_eq]; rfl)

/-! ## The prepared operands at an index -/

theorem w1_at (c : Dev nD) (i : Fin 64) (h : Fin 128) :
    V m c main_v0 (ix2 i h) = m ((c : Thread nD τ).loc main_arg2) (ix2 h i) := by
  rw [V_w1]
  exact transpose_ix2_apply _ _ i h

theorem b1_at (c : Dev nD) (h : Fin 128) :
    V m c main_v1 (ix2 (0 : Fin 1) h) = m ((c : Thread nD τ).loc main_arg3) (ix1 h) := by
  rw [V_b1]
  exact shapeCast_a_1a_apply _ _ 0 h

/-- Column `2k + o` of the packed head matrix is `Wb[k, o, ·]`. -/
theorem wb_at (c : Dev nD) (h : Fin 128) (k : Fin 3) (o : Fin 2) :
    V m c main_v3 (ix2 h (lane k o)) = m ((c : Thread nD τ).loc main_arg4) (ix3 k o h) := by
  rw [V_wb, shapeCast_apply _ shapeCasts_S128x3x2_S128x6 (ix2 h (lane k o)) (ix3 h k o) (by
    rw [Shape.rowMajor_val_three, Shape.rowMajor_val_two]
    show (h.val * 3 + k.val) * 2 + o.val = h.val * 6 + (2 * k.val + o.val)
    omega)]
  exact transpose_apply _ _ _ (ix3 h k o) (ix3 k o h) (fun b => match b with | ⟨0, _⟩ => rfl | ⟨1, _⟩ => rfl | ⟨2, _⟩ => rfl)

theorem bb_at (c : Dev nD) (k : Fin 3) (o : Fin 2) :
    V m c main_v4 (ix2 (0 : Fin 1) (lane k o)) = m ((c : Thread nD τ).loc main_arg5) (ix2 k o) := by
  rw [V_bb, shapeCast_apply _ shapeCasts_S3x2_S1x6 (ix2 (0 : Fin 1) (lane k o)) (ix2 k o) (by
    rw [Shape.rowMajor_val_two, Shape.rowMajor_val_two]
    show k.val * 2 + o.val = 0 * 6 + (2 * k.val + o.val)
    omega)]

/-- The index word the region sees is the argument's, clamped to [0, 2]. -/
theorem uc_at (c : Dev nD) (r : Fin 1000000) :
    V m c main_v6 (ix2 r (0 : Fin 1)) = IntOp.minsi 2#32 (IntOp.maxsi 0#32 (m ((c : Thread nD τ).loc main_arg1) (ix1 r))) := by
  rw [V_uc, shapeCast_apply _ shapeCasts_S1000000_S1000000x1 (ix2 r (0 : Fin 1)) (ix1 r) (by
    rw [Shape.rowMajor_val_one, Shape.rowMajor_val_two]
    show r.val = r.val * 1 + 0
    omega)]
  rfl

/-! ## The packed column is the head, and the array is `G` -/

theorem packedA_head (c : Dev nD) (r : Fin 1000000) (k : Fin 3) (o : Fin 2) :
    packedA (V m c main_arg0) (V m c main_v0) (V m c main_v1) (V m c main_v3) (V m c main_v4) r (lane k o)
      = head (m ((c : Thread nD τ).loc main_arg0)) (m ((c : Thread nD τ).loc main_arg2)) (m ((c : Thread nD τ).loc main_arg3))
          (m ((c : Thread nD τ).loc main_arg4)) (m ((c : Thread nD τ).loc main_arg5)) r k o := by
  unfold packedA head hid
  simp only [w1_at m c, b1_at m c, wb_at m c, bb_at m c, V_main_arg0 m c]

/-- Where every index word is 0, 1 or 2, the array the region's blocks make up is `G` of the arguments. -/
theorem GK_eq_G (c : Dev nD)
    (Hu : ∀ r : Fin 1000000, m ((c : Thread nD τ).loc main_arg1) (ix1 r) = 0#32 ∨ m ((c : Thread nD τ).loc main_arg1) (ix1 r) = 1#32
      ∨ m ((c : Thread nD τ).loc main_arg1) (ix1 r) = 2#32) :
    GK (V m c main_arg0) (V m c main_v6) (V m c main_v0) (V m c main_v1) (V m c main_v3) (V m c main_v4)
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  funext j
  obtain ⟨r, o, rfl⟩ : ∃ (r : Fin 1000000) (o : Fin 2), j = ix2 r o := ⟨j 0, j 1, eq_ix2 j⟩
  show (packedA (V m c main_arg0) (V m c main_v0) (V m c main_v1) (V m c main_v3) (V m c main_v4) r (lane 0 o) * msk (V m c main_v6 (ix2 r (0 : Fin 1))) 0#32
      + packedA (V m c main_arg0) (V m c main_v0) (V m c main_v1) (V m c main_v3) (V m c main_v4) r (lane 1 o) * msk (V m c main_v6 (ix2 r (0 : Fin 1))) 1#32)
      + packedA (V m c main_arg0) (V m c main_v0) (V m c main_v1) (V m c main_v3) (V m c main_v4) r (lane 2 o) * msk (V m c main_v6 (ix2 r (0 : Fin 1))) 2#32
    = head (m ((c : Thread nD τ).loc main_arg0)) (m ((c : Thread nD τ).loc main_arg2)) (m ((c : Thread nD τ).loc main_arg3))
          (m ((c : Thread nD τ).loc main_arg4)) (m ((c : Thread nD τ).loc main_arg5)) r (pick (m ((c : Thread nD τ).loc main_arg1) (ix1 r))) o
  rw [packedA_head, packedA_head, packedA_head, uc_at, clamp_word _ (Hu r)]
  exact routed_sum (fun k => head (m ((c : Thread nD τ).loc main_arg0)) (m ((c : Thread nD τ).loc main_arg2)) (m ((c : Thread nD τ).loc main_arg3))
          (m ((c : Thread nD τ).loc main_arg4)) (m ((c : Thread nD τ).loc main_arg5)) r k o) _ (Hu r)

end Cert.KernelIdeal.Host

end
-- ==== Proof.LibAndReduce.lean ====
/-
  A reduction by `and` of ones is one.

  The library reads a `jnp.all` backwards (Lib/ReduceAll.lean: if the reduction is 1, every element is 1). This is the
  other direction, for any shapes and any reduced axes: a one-operand `stablehlo.reduce` of an `i1` array by `and`, from
  an initial bit 1, over an operand whose every element is 1, is 1 at every result index — the reduction is a left fold
  of `and` over the operand's elements, and `1 and 1 = 1`.
-/
import Idealize.ShloMosaic.PureOps.Reduce

namespace Idealize.ShloMosaic

namespace IntOp

/-- A left fold by `and` over one-bit words that are all 1, started at 1, is 1. -/
theorem foldl_andi_of_all_one {ι : Type} (f : ι → BitVec 1) (hf : ∀ n, f n = 1#1) :
    ∀ l : List ι, l.foldl (fun r n => andi r (f n)) 1#1 = 1#1
  | [] => rfl
  | a :: l => by
    have h11 : andi (1#1 : BitVec 1) 1#1 = 1#1 := by decide
    rw [List.foldl_cons, hf a, h11]
    exact foldl_andi_of_all_one f hf l

end IntOp

namespace Host

variable {s t u : Shape} {axes : List (Fin s.rank)}

/-- A `stablehlo.reduce` by `and`, from the bit 1, of an array of ones is 1 at every result index. -/
theorem reduce_andi_of_all_one (x : s.Idx → BitVec 1) (init : u.Idx → BitVec 1) (h : s.ReducesTo axes t) (hu : 0 < u.numel)
    (j : t.Idx) (hx : ∀ i, x i = 1#1) (hi : init (Shape.Idx.first hu) = 1#1) :
    Host.reduce IntOp.andi x init h hu j = 1#1 := by
  rw [Host.reduce_eq_foldl, hi]
  exact IntOp.foldl_andi_of_all_one x hx _

end Host

end Idealize.ShloMosaic
-- ==== Proof.RefValue.lean ====
/-
  The reference computes `G`.

  The reference forms the hidden array `max (x · W1ᵀ + b1) 0`, contracts it with all three heads at once into the stack
  `heads[r, k, o] = ∑ h, hid[r,h] · Wb[k,o,h] + bb[k,o]`, and then takes, along the head axis, the entry the row's index
  word names: a gather whose start index is the word (a negative one first wrapped by 3) read signed and cut to [0, 2],
  under a select that keeps the gathered value where the wrapped word lies in [0, 2] and a NaN pattern elsewhere.
  For an index word that is 0, 1 or 2 nothing wraps, the range test is 1 on every row (so the reduction of that test
  over the unit axis is 1 too and the select keeps the gathered value), and the gather reads head `u[r]`:
  the result at `(r, o)` is `head r (u[r]) o = G[r, o]`.
-/
import proofs.«417460_j37855841747602_3_alg».proof.Proof.RefRead
import proofs.«417460_j37855841747602_3_alg».proof.Proof.Spec
import proofs.«417460_j37855841747602_3_alg».proof.Proof.LibAndReduce

set_option maxRecDepth 16384

noncomputable section

open scoped BigOperators

namespace Cert.ReferenceIdeal.RefValue

open Cert.ReferenceIdeal Cert.ReferenceIdeal.Gen Cert.ReferenceIdeal.ReadP
open Idealize.ShloMosaic Idealize.ShloMosaic.ValueIdx Cert.Routed

variable (x0 : FVec Ideal S1000000x64 .f32) (x1 : IVec S1000000 32) (x2 : FVec Ideal S128x64 .f32) (x3 : FVec Ideal S128 .f32)
  (x4 : FVec Ideal S3x2x128 .f32) (x5 : FVec Ideal S3x2 .f32)

/-! ## The stack of heads -/

theorem lidx6 (r : Fin 1000000) (k : Fin 3) (o : Fin 2) (h : Fin 128) : lidx_main_v6 (ix3 r k o) h = ix2 r h :=
  funext fun a => by match a with | ⟨0, _⟩ => rfl | ⟨1, _⟩ => rfl
theorem ridx6 (r : Fin 1000000) (k : Fin 3) (o : Fin 2) (h : Fin 128) : ridx_main_v6 (ix3 r k o) h = ix3 k o h :=
  funext fun a => by match a with | ⟨0, _⟩ => rfl | ⟨1, _⟩ => rfl | ⟨2, _⟩ => rfl
theorem idx78 (r : Fin 1000000) (k : Fin 3) (o : Fin 2) : idx_main_v7 (idx_main_v8 (ix3 r k o)) = ix2 k o :=
  funext fun a => by match a with | ⟨0, _⟩ => rfl | ⟨1, _⟩ => rfl
theorem lidx1 (r : Fin 1000000) (h : Fin 128) (i : Fin 64) : lidx_main_v1 (ix2 r h) i = ix2 r i :=
  funext fun a => by match a with | ⟨0, _⟩ => rfl | ⟨1, _⟩ => rfl
theorem ridx10 (r : Fin 1000000) (h : Fin 128) (i : Fin 64) : idx_main_v0 (ridx_main_v1 (ix2 r h) i) = ix2 h i :=
  funext fun a => by match a with | ⟨0, _⟩ => rfl | ⟨1, _⟩ => rfl
theorem idx23 (r : Fin 1000000) (h : Fin 128) : idx_main_v2 (idx_main_v3 (ix2 r h)) = ix1 h :=
  funext fun a => by match a with | ⟨0, _⟩ => rfl

/-- Entry `(r, k, o)` of the stack is output `o` of head `k` on row `r`. -/
theorem heads_at (r : Fin 1000000) (k : Fin 3) (o : Fin 2) :
    val_main_v9 (F := Ideal) x0 x2 x3 x4 x5 (ix3 r k o) = head x0 x2 x3 x4 x5 r k o := by
  unfold head hid
  rw [val_main_v9_apply, val_main_v6_apply, val_main_v8_apply, val_main_v7_apply, idx78]
  simp only [lidx6, ridx6, val_main_v5_apply, val_main_v4_apply, val_main_v1_apply, val_main_v0_apply, val_main_v3_apply,
    val_main_v2_apply, val_main_call0_v0_apply, val_main_call0_cst_apply, lidx1, ridx10, idx23, Ideal.addf_def,
    Ideal.maximumf_def, Ideal.ofBits_def, Ideal.ofBits_zero_f32]

/-! ## The index words on the reference's side -/

variable (Hu : ∀ q : S1000000.Idx, x1 q = 0#32 ∨ x1 q = 1#32 ∨ x1 q = 2#32)
include Hu

/-- A word in {0, 1, 2} is not wrapped: the start index is the word itself. -/
theorem start_at (i3 : S1000000x1x1.Idx) : val_main_call1_v4 (F := Ideal) x1 i3 = x1 (idx_main_v10 i3) := by
  show Scalar.select (IntOp.cmpi .slt (val_main_v10 (F := Ideal) x1 i3) (val_main_call1_v0 (F := Ideal) i3))
    (IntOp.addi (val_main_v10 (F := Ideal) x1 i3) (val_main_call1_v2 (F := Ideal) i3)) (val_main_v10 (F := Ideal) x1 i3) = _
  have h0 : val_main_call1_v0 (F := Ideal) i3 = 0#32 := by rw [val_main_call1_v0_apply]; rfl
  rw [val_main_v10_apply, h0, word_not_neg _ (Hu _)]
  rfl

/-- The range test is 1 at every index, -/
theorem in_range_at (i3 : S1000000x1x1.Idx) : val_main_call1_v10 (F := Ideal) x1 i3 = 1#1 := by
  show IntOp.andi (IntOp.cmpi .sge (val_main_call1_v4 (F := Ideal) x1 i3) (val_main_call1_v5 (F := Ideal) i3))
    (IntOp.cmpi .sle (val_main_call1_v4 (F := Ideal) x1 i3) (val_main_call1_v8 (F := Ideal) i3)) = 1#1
  have h5 : val_main_call1_v5 (F := Ideal) i3 = 0#32 := by rw [val_main_call1_v5_apply]; rfl
  have h8 : val_main_call1_v8 (F := Ideal) i3 = 2#32 := by rw [val_main_call1_v8_apply, val_main_call1_v7_apply]; rfl
  rw [start_at x1 Hu, h5, h8]
  exact word_in_range _ (Hu _)

/-- so its reduction over the unit axis, broadcast to the result's shape, is 1 everywhere: the select keeps the gather. -/
theorem keep_at (i : S1000000x1x2.Idx) : val_main_call1_v13 (F := Ideal) x1 i = 1#1 := by
  rw [val_main_call1_v13_apply]
  unfold val_main_call1_v11
  exact Host.reduce_andi_of_all_one _ _ _ _ _ (in_range_at x1 Hu) rfl

/-! ## The gather -/

omit Hu in
/-- The operand index the gather reads for result index `(r, 0, o)`: row `r` (the batching axis), the start index on the
    head axis read signed and cut to [0, 2], and offset `o`. -/
theorem gather_idx (idx : IVec S1000000x1x1 32) (r : Fin 1000000) (o : Fin 2) :
    gather_S1000000x3x2_S1000000x1x1_S1000000x1x2_2_1_0_0_1_2_112.operandIdx (ix3 r (0 : Fin 1) o) idx
      = ix3 r (⟨min (idx (ix3 r (0 : Fin 1) (0 : Fin 1))).toInt.toNat 2, by omega⟩ : Fin 3) o := by
  funext a
  refine Fin.ext ?_
  match a with
  | ⟨0, _⟩ =>
    show gather_S1000000x3x2_S1000000x1x1_S1000000x1x2_2_1_0_0_1_2_112.start (ix3 r (0 : Fin 1) o) idx 0
      + gather_S1000000x3x2_S1000000x1x1_S1000000x1x2_2_1_0_0_1_2_112.batchCoord (ix3 r (0 : Fin 1) o) 0
      + gather_S1000000x3x2_S1000000x1x1_S1000000x1x2_2_1_0_0_1_2_112.offCoord (ix3 r (0 : Fin 1) o) 0 = r.val
    rw [GatherDims.start_batching _ _ _ _ (by decide), GatherDims.offCoord_eq_zero _ _ _ (by decide)]
    unfold GatherDims.batchCoord
    rw [dif_pos (by decide), Nat.zero_add, Nat.add_zero]
    rfl
  | ⟨1, _⟩ =>
    show gather_S1000000x3x2_S1000000x1x1_S1000000x1x2_2_1_0_0_1_2_112.start (ix3 r (0 : Fin 1) o) idx 1
      + gather_S1000000x3x2_S1000000x1x1_S1000000x1x2_2_1_0_0_1_2_112.batchCoord (ix3 r (0 : Fin 1) o) 1
      + gather_S1000000x3x2_S1000000x1x1_S1000000x1x2_2_1_0_0_1_2_112.offCoord (ix3 r (0 : Fin 1) o) 1 = min (idx (ix3 r (0 : Fin 1) (0 : Fin 1))).toInt.toNat 2
    rw [GatherDims.batchCoord_eq_zero _ _ _ (by decide), GatherDims.offCoord_eq_zero _ _ _ (by decide)]
    unfold GatherDims.start
    rw [dif_pos (by decide)]
    have hsi : gather_S1000000x3x2_S1000000x1x1_S1000000x1x2_2_1_0_0_1_2_112.siIdx (ix3 r (0 : Fin 1) o)
        ⟨List.idxOf (1 : Fin 3) gather_S1000000x3x2_S1000000x1x1_S1000000x1x2_2_1_0_0_1_2_112.startIndexMap, List.idxOf_lt_length_iff.2 (by decide)⟩
        = ix3 r (0 : Fin 1) (0 : Fin 1) := by
      funext b; refine Fin.ext ?_
      match b with
      | ⟨0, _⟩ => rfl
      | ⟨1, _⟩ => rfl
      | ⟨2, _⟩ => rfl
    rw [hsi]
    rfl
  | ⟨2, _⟩ =>
    show gather_S1000000x3x2_S1000000x1x1_S1000000x1x2_2_1_0_0_1_2_112.start (ix3 r (0 : Fin 1) o) idx 2
      + gather_S1000000x3x2_S1000000x1x1_S1000000x1x2_2_1_0_0_1_2_112.batchCoord (ix3 r (0 : Fin 1) o) 2
      + gather_S1000000x3x2_S1000000x1x1_S1000000x1x2_2_1_0_0_1_2_112.offCoord (ix3 r (0 : Fin 1) o) 2 = o.val
    rw [GatherDims.batchCoord_eq_zero _ _ _ (by decide)]
    unfold GatherDims.start GatherDims.offCoord
    rw [dif_neg (by decide), dif_pos (by decide), Nat.zero_add]
    rfl

/-- The gathered value at `(r, 0, o)` is output `o` of the head the row's word names. -/
theorem gathered_at (r : Fin 1000000) (o : Fin 2) :
    val_main_call1_v12 (F := Ideal) x0 x1 x2 x3 x4 x5 (ix3 r (0 : Fin 1) o) = head x0 x2 x3 x4 x5 r (pick (x1 (ix1 r))) o := by
  unfold val_main_call1_v12 Host.gather
  rw [gather_idx, ← heads_at]
  refine congrArg _ (congrArg (fun k => ix3 r k o) (Fin.ext ?_))
  show min (val_main_call1_v4 (F := Ideal) x1 (ix3 r (0 : Fin 1) (0 : Fin 1))).toInt.toNat 2 = (pick (x1 (ix1 r))).val
  have h10 : idx_main_v10 (ix3 r (0 : Fin 1) (0 : Fin 1)) = ix1 r := funext fun a => by match a with | ⟨0, _⟩ => rfl
  rw [start_at x1 Hu, h10]
  exact word_toNat _ (Hu _)

/-! ## The result -/

/-- The reference's result array is `G` of its arguments. -/
theorem result_eq : val_main_v12 (F := Ideal) x0 x1 x2 x3 x4 x5 = G x0 x1 x2 x3 x4 x5 := by
  funext j
  obtain ⟨r, o, rfl⟩ : ∃ (r : Fin 1000000) (o : Fin 2), j = ix2 r o := ⟨j 0, j 1, eq_ix2 j⟩
  have hi : idx_main_v12 (ix2 r o) = ix3 r (0 : Fin 1) o := funext fun a => Fin.ext (by
    have hr := r.isLt
    have ho := o.isLt
    match a with
    | ⟨0, _⟩ => show (r.val * 2 + o.val) / 2 = r.val; omega
    | ⟨1, _⟩ => rfl
    | ⟨2, _⟩ => show (r.val * 2 + o.val) % 2 = o.val; omega)
  rw [val_main_v12_apply, val_main_v11_apply, hi, keep_at x1 Hu, gathered_at x0 x1 x2 x3 x4 x5 Hu]
  rfl

end Cert.ReferenceIdeal.RefValue

end
-- ==== Proof.PreRange.lean ====
/-
  What the precondition says of the index words.

  The precondition is a conjunction of seven `jnp.all`s: five that the float inputs are finite, and the two that
  matter here, `all (u ≥ 0)` and `all (u < 3)`. Each `jnp.all` is a reduction by `and` of a one-bit array to a single
  bit; that bit is 1 only if every element is, so every `u[r]`, read signed, is at least 0 and below 3: it is the word
  0, 1 or 2. (The finiteness conjuncts are not used: the two programs agree on every extended real.)
-/
import proofs.«417460_j37855841747602_3_alg».proof.Pre_finite_inputs
import proofs.«417460_j37855841747602_3_alg».proof.Proof.Gen.Pre_finite_inputs
import proofs.«417460_j37855841747602_3_alg».proof.Proof.Spec
import Idealize.ShloMosaic.Lib.ReduceAll

noncomputable section

namespace Cert.PreRange

open Cert.Pre_finite_inputs Idealize.ShloMosaic Idealize.ShloMosaic.ValueIdx Cert.Routed

instance : Subsingleton S_.Idx := ⟨fun a b => funext fun d => d.elim0⟩

/-- Under the precondition every index word is 0, 1 or 2. -/
theorem words_of_pre (x : FVec Ideal S1000000x64 .f32) (u : IVec S1000000 32) (W1 : FVec Ideal S128x64 .f32) (b1 : FVec Ideal S128 .f32)
    (Wb : FVec Ideal S3x2x128 .f32) (bb : FVec Ideal S3x2 .f32)
    (h : Cert.Pre_finite_inputs.fn (F := Ideal) x u W1 b1 Wb bb = fun _ => 1#1) (r : Fin 1000000) :
    u (ix1 r) = 0#32 ∨ u (ix1 r) = 1#32 ∨ u (ix1 r) = 2#32 := by
  have e := congrFun h ValueIdx.ix0
  unfold Cert.Pre_finite_inputs.fn Cert.Pre_finite_inputs.fn_part1 at e
  dsimp only at e
  obtain ⟨e1, e30⟩ := IntOp.andi_eq_one.1 e
  obtain ⟨-, e26⟩ := IntOp.andi_eq_one.1 e1
  have h0 := Host.reduce_andi_all _ _ _ _ _ e26 (ix1 r)
  have h3 := Host.reduce_andi_all _ _ _ _ _ e30 (ix1 r)
  exact word_cases _ h0 h3

end Cert.PreRange

end
-- ==== Proof.lean ====
/-
  A two-layer network with three output heads and hard routing: the kernel against its jnp reference, over the extended reals.

  Both programs compute, for each of 1,000,000 rows `r`, the hidden vector `max (x[r] · W1ᵀ + b1) 0`, the three heads
  `head k = hid · Wb[k]ᵀ + bb[k]`, and return the head the row's index word `u[r]` names (Proof/Spec.lean: `G`).
  The reference stacks the heads and gathers along the head axis (Proof/RefValue.lean, over its run read back one operation
  at a time). The kernel works on 250 blocks of 4000 rows; on each it multiplies the hidden block by the three heads packed
  side by side in one 128 × 6 matrix and keeps the named head by multiplying each column with the indicator of its head and
  adding the three pairs (Proof/KernelPay.lean); the blocks are restrictions of one function of the rows, and they tile the
  result (Proof/KernelBlocks.lean); the operands the kernel prepares before the launch — transposes, flattenings, the index
  words clamped to [0, 2] — are read at an index in Proof/KernelHost.lean.

  The two agree wherever every index word is 0, 1 or 2: there clamping and wrapping do nothing, the reference's range test
  passes, and a sum of three heads times the indicators of one of them is that head on every extended real. Outside that
  range they differ (the reference wraps a negative word and fills a NaN pattern past the end, the kernel clamps), which is
  why the precondition carries `0 ≤ u < 3` beside finiteness (Proof/PreRange.lean reads it back); finiteness itself is
  not needed. The idealization rewrote nothing, so `preserves` is `True`; each frame is the program's generated run.
-/
import proofs.«417460_j37855841747602_3_alg».proof.Defs
import proofs.«417460_j37855841747602_3_alg».proof.Proof.Gen.Kernel
import proofs.«417460_j37855841747602_3_alg».proof.Proof.Gen.Kernel.Skeleton
import proofs.«417460_j37855841747602_3_alg».proof.Proof.Gen.Kernel.Launch
import proofs.«417460_j37855841747602_3_alg».proof.Proof.Gen.Kernel.Points
import proofs.«417460_j37855841747602_3_alg».proof.Proof.Gen.Kernel.Frame
import proofs.«417460_j37855841747602_3_alg».proof.Proof.Gen.KernelIdeal
import proofs.«417460_j37855841747602_3_alg».proof.Proof.Gen.KernelIdeal.Skeleton
import proofs.«417460_j37855841747602_3_alg».proof.Proof.Gen.KernelIdeal.Launch
import proofs.«417460_j37855841747602_3_alg».proof.Proof.Gen.KernelIdeal.Points
import proofs.«417460_j37855841747602_3_alg».proof.Proof.Gen.KernelIdeal.Frame
import proofs.«417460_j37855841747602_3_alg».proof.Proof.Gen.ReferenceIdeal
import proofs.«417460_j37855841747602_3_alg».proof.Proof.Gen.Pre_finite_inputs
import proofs.«417460_j37855841747602_3_alg».proof.Proof.Gen.KernelIdeal.Value
import proofs.«417460_j37855841747602_3_alg».proof.Proof.RefRead
import proofs.«417460_j37855841747602_3_alg».proof.Proof.KernelHost
import proofs.«417460_j37855841747602_3_alg».proof.Proof.RefValue
import proofs.«417460_j37855841747602_3_alg».proof.Proof.PreRange
import Idealize.ShloMosaic.Adequacy
import Idealize.ShloMosaic.Init

noncomputable section

namespace Cert.Proof

open Idealize.ShloMosaic Idealize.ShloMosaic.TcCoe Idealize.SL.Sem Idealize.ShloMosaic.ValueIdx Cert.Routed

/-- Under the precondition every index word of the launch memory is 0, 1 or 2. -/
theorem words (m : (ℓ : Loc Cert.KernelIdeal.nD Cert.KernelIdeal.τ Cert.KernelIdeal.sig) → Buf (Elt Ideal) ℓ)
    (hpre : Cert.Pre_KernelIdeal m) (c : Dev Cert.KernelIdeal.nD) (q : Cert.KernelIdeal.S1000000.Idx) :
    m ((c.tc : Thread Cert.KernelIdeal.nD Cert.KernelIdeal.τ).loc Cert.KernelIdeal.main_arg1) q = 0#32
      ∨ m ((c.tc : Thread Cert.KernelIdeal.nD Cert.KernelIdeal.τ).loc Cert.KernelIdeal.main_arg1) q = 1#32
      ∨ m ((c.tc : Thread Cert.KernelIdeal.nD Cert.KernelIdeal.τ).loc Cert.KernelIdeal.main_arg1) q = 2#32 := by
  have h := Cert.PreRange.words_of_pre _ _ _ _ _ _ (hpre c) (q 0)
  rw [eq_ix1 q]
  exact h

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- Both programs end with `G` of the arguments in their result arrays. -/
theorem algebraic : Cert.algebraic_KernelIdeal_ReferenceIdeal := by
  intro m ρ m' ρ' hpre hagree
  refine ⟨fun c => G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans ((Cert.KernelIdeal.Blocks.final m c).trans
        (Cert.KernelIdeal.Host.GK_eq_G m c (fun r => words m hpre c (ix1 r)))), (h c).2⟩)
      (Cert.KernelIdeal.Value.run_blocks m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v12_eq]
    rw [Cert.ReferenceIdeal.RefValue.result_eq _ _ _ _ _ _ (fun q => by rw [(hagree c).2.1]; exact words m hpre c q)]
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
